-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S25000x16 : Shape := ⟨2, ![25000, 16]⟩
abbrev S100000x1 : Shape := ⟨2, ![100000, 1]⟩

abbrev nBuf : Space → Nat
  | .hbm => 106
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x16, .f32⟩
  | .hbm, ⟨105, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S25000x16, .f32⟩
  | .local _ .vmem, ⟨6, _⟩ => ⟨S25000x16, .f32⟩
  | .local _ .vmem, ⟨7, _⟩ => ⟨S16x16, .f32⟩
  | .local _ .vmem, ⟨8, _⟩ => ⟨S25000x16, .f32⟩
  | .local _ .vmem, ⟨9, _⟩ => ⟨S25000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S25000x16_S25000x16_0_0 : ∀ a, (![0, 0] : Fin 2 → Nat) a + S25000x16.size a ≤ S25000x16.size a
  h_S25000x16 : 0 < S25000x16.numel
  shapeCasts_S25000x16_S25000x16 : S25000x16.ShapeCasts S25000x16
  inb_S16x16_S16x16_0_0 : ∀ a, (![0, 0] : Fin 2 → Nat) a + S16x16.size a ≤ S16x16.size a
  h_S16x16 : 0 < S16x16.numel
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x16_S25000x16_1_0_0_1_n_n_wf : DotDims.WF S25000x16 S16x16 S25000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x16.size a ≤ S100000x16.size a
  hwx1_2 : ∀ i : grid1.Coords, EltTy.bits .f32 = 32 ∨ (Rect.block (s := S100000x16) S25000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x16_S25000x16_1_0_0_1_n_n : DotDims S25000x16 S16x16 S25000x16 where
  lhsContracting := [1]
  rhsContracting := [0]
  lhsNonContracting := [0]
  rhsNonContracting := [1]
  lhsBatch := []
  rhsBatch := []
  wf := dot_S25000x16_S16x16_S25000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S25000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x16, .f32⟩
  | .hbm, ⟨105, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.LibTypedRef.lean ====
/-
  A typed reference's two transports cancel.

  A host operation inside a module-local function reads and writes its buffers through typed references: contents are
  carried to the buffer's own type on the way in (`toBuf`) and back to the value's type on the way out (`ofBuf`), both
  along the one equation between the two types. Going in and coming straight back out is therefore the identity, whatever
  the reference: that is all a proof reading such a function's operations needs of the transports between consecutive
  operations.
-/
import Idealize.ShloMosaic.Lib.StableHlo

namespace Cert.Lib

open Idealize.ShloMosaic Idealize.ShloMosaic.StableHlo

/-- Reading contents back at a tensor value's type undoes writing them at its buffer's. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.Lib
-- ==== Proof.RefStages.lean ====
/-
  The reference's run, read in four stretches.

  The reference's @main is one line of 100 host operations. Cut at its two dot_generals it is: the preparation of the
  edges (source and target node of every edge with self loops appended, every node's degree, every edge's symmetric
  normalisation); the first layer (the product of the features with the first weight matrix, its rows gathered along the
  edges, weighted, summed at their targets, plus the bias, relu); the second layer (the same from the hidden activations,
  without the relu, then a log-softmax over the 16 classes). Each stretch is read as the stage functions `val_…` of what
  it finds, and the stretches are put together: every weakly fair execution terminates with the result at `val_main_v66` of
  the argument arrays, the arguments unchanged.
-/
import proofs.«159775_j15762529976717_1_alg».proof.Proof.RefRead
import proofs.«159775_j15762529976717_1_alg».proof.Proof.LibTypedRef
import Idealize.ShloMosaic.Lib.StableHlo.Run
import Idealize.ShloMosaic.Lib.Pipeline.Frame

set_option maxRecDepth 65536

noncomputable section

namespace Cert.ReferenceIdeal.Stages

open Cert.ReferenceIdeal Cert.ReferenceIdeal.Gen Idealize.ShloMosaic Idealize.ShloMosaic.TcCoe Idealize.SL.Sem Idealize.ShloMosaic.StableHlo

/-- After the one-pass reading of a stretch, the operands of a concatenate are still written as "the contents after the
    earlier operations, at this buffer": read those too, one operation at a time. -/
macro "read_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable {F : FTy → Type} [FloatOps F]

/-! ## The line, cut at its two products -/

/-- The preparation of the edges: the 42 operations before the first product. -/
abbrev prepare : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first layer: the first product and the 22 operations up to the relu. -/
abbrev layer1 : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_7 (constantI S_ 32 0#32),
    unary main_c_7 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- The second layer: the second product and the 19 operations up to its output. -/
abbrev layer2 : List (HloOp τ sig (Elt F)) :=
  [ binary main_v48 main_arg4 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_10 (constantI S_ 32 0#32),
    unary main_c_10 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v49 main_v55 main_v56 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v57 (broadcastInDim S3300000x1 ![0] bcast_S3300000_S3300000x1_0 : (⟨S3300000, .f32⟩ : BufTy).Contents (Elt F) → (⟨S3300000x1, .f32⟩ : BufTy).Contents (Elt F)),
    unary main_v57 main_v58 (broadcastInDim S3300000x16 ![0, 1] bcast_S3300000x1_S3300000x16_0_1 : (⟨S3300000x1, .f32⟩ : BufTy).Contents (Elt F) → (⟨S3300000x16, .f32⟩ : BufTy).Contents (Elt F)),
    binary main_v56 main_v58 main_v59 (mulf : (⟨S3300000x16, .f32⟩ : BufTy).Contents (Elt F) → (⟨S3300000x16, .f32⟩ : BufTy).Contents (Elt F) → (⟨S3300000x16, .f32⟩ : BufTy).Contents (Elt F)),
    nullary main_cst_12 (constant S_ .f32 0x00000000#32),
    unary main_cst_12 main_v60 (broadcastInDim S100000x16 ![] bcast_S_S100000x16 : (⟨S_, .f32⟩ : BufTy).Contents (Elt F) → (⟨S100000x16, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v63 (broadcastInDim S1x16 ![1] bcast_S16_S1x16_1 : (⟨S16, .f32⟩ : BufTy).Contents (Elt F) → (⟨S1x16, .f32⟩ : BufTy).Contents (Elt F)),
    unary main_v63 main_v64 (broadcastInDim S100000x16 ![0, 1] bcast_S1x16_S100000x16_0_1 : (⟨S1x16, .f32⟩ : BufTy).Contents (Elt F) → (⟨S100000x16, .f32⟩ : BufTy).Contents (Elt F)),
    binary main_v62 main_v64 main_v65 (addf : (⟨S100000x16, .f32⟩ : BufTy).Contents (Elt F) → (⟨S100000x16, .f32⟩ : BufTy).Contents (Elt F) → (⟨S100000x16, .f32⟩ : BufTy).Contents (Elt F)) ]

/-- The log-softmax over the 16 classes: the last 15 operations. -/
abbrev softmax : List (HloOp τ sig (Elt F)) :=
  [ TRef.nullary (TRef.of (T := ⟨S_, .f32⟩) main_call2_cst) (constant S_ .f32 0xFF800000#32),
    TRef.binary (TRef.of (T := ⟨S100000x16, .f32⟩) main_v65) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v65) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v66) subf ]

set_option maxHeartbeats 4000000 in
/-- The four stretches in order are the whole line. -/
theorem ops_cut : (ValueP.ops : List (HloOp τ sig (Elt F))) = prepare ++ (layer1 ++ (layer2 ++ softmax)) := rfl

/-- So the contents after the whole line are the contents after the four stretches, one after the other. -/
theorem after_cut (V : Valuation τ sig (Elt F)) :
    after ValueP.ops V = after softmax (after layer2 (after layer1 (after prepare V))) := by
  rw [ops_cut, StableHlo.after_append, StableHlo.after_append, StableHlo.after_append]

/-! ## The preparation -/

section Prepare
variable (V : Valuation τ sig (Elt F))

theorem sources_eq : after prepare V (Proc.devRef .tc main_v3) = ReadP.val_main_v3 (F := F) (V (Proc.devRef .tc main_arg1)) := by
  after_results_simp
  read_inside
  try simp only [Cert.Lib.ofBuf_toBuf]
  rfl
theorem targets_eq : after prepare V (Proc.devRef .tc main_v6) = ReadP.val_main_v6 (F := F) (V (Proc.devRef .tc main_arg1)) := by
  after_results_simp
  read_inside
  try simp only [Cert.Lib.ofBuf_toBuf]
  rfl
theorem weights_eq : after prepare V (Proc.devRef .tc main_v30) = ReadP.val_main_v30 (F := F) (V (Proc.devRef .tc main_arg1)) := by
  after_results_simp
  read_inside
  try simp only [Cert.Lib.ofBuf_toBuf]
  rfl
theorem prepare_arg0 : after prepare V (Proc.devRef .tc main_arg0) = V (Proc.devRef .tc main_arg0) := by after_results_simp <;> rfl
theorem prepare_arg2 : after prepare V (Proc.devRef .tc main_arg2) = V (Proc.devRef .tc main_arg2) := by after_results_simp <;> rfl
theorem prepare_arg3 : after prepare V (Proc.devRef .tc main_arg3) = V (Proc.devRef .tc main_arg3) := by after_results_simp <;> rfl
theorem prepare_arg4 : after prepare V (Proc.devRef .tc main_arg4) = V (Proc.devRef .tc main_arg4) := by after_results_simp <;> rfl
theorem prepare_arg5 : after prepare V (Proc.devRef .tc main_arg5) = V (Proc.devRef .tc main_arg5) := by after_results_simp <;> rfl
end Prepare

/-! ## The first layer -/

section Layer1
variable (U : Valuation τ sig (Elt F))

/-- The hidden activations, from contents holding the three edge vectors and the arguments. -/
theorem hidden_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (h0 : U (Proc.devRef .tc main_arg0) = x0) (h2 : U (Proc.devRef .tc main_arg2) = x2) (h3 : U (Proc.devRef .tc main_arg3) = x3)
    (hs : U (Proc.devRef .tc main_v3) = ReadP.val_main_v3 (F := F) x1) (ht : U (Proc.devRef .tc main_v6) = ReadP.val_main_v6 (F := F) x1)
    (hw : U (Proc.devRef .tc main_v30) = ReadP.val_main_v30 (F := F) x1) :
    after layer1 U (Proc.devRef .tc main_v48) = ReadP.val_main_v48 (F := F) x0 x1 x2 x3 := by
  after_results_simp
  simp only [Cert.Lib.ofBuf_toBuf]
  rw [h0, h2, h3, hs, ht, hw]
  simp only [ReadP.val_main_v48, ReadP.val_main_call1_v0, ReadP.val_main_call1_cst, ReadP.val_main_v47, ReadP.val_main_v46, ReadP.val_main_v45, ReadP.val_main_v44, ReadP.val_main_v43, ReadP.val_main_v42, ReadP.val_main_cst_9, ReadP.val_main_v41, ReadP.val_main_v40, ReadP.val_main_v39, ReadP.val_main_v38, ReadP.val_main_v37, ReadP.val_main_v36, ReadP.val_main_v35, ReadP.val_main_v34, ReadP.val_main_c_8, ReadP.val_main_v33, ReadP.val_main_v32, ReadP.val_main_c_7, ReadP.val_main_v31]
  try rfl

theorem layer1_sources : after layer1 U (Proc.devRef .tc main_v3) = U (Proc.devRef .tc main_v3) := by after_results_simp <;> rfl
theorem layer1_targets : after layer1 U (Proc.devRef .tc main_v6) = U (Proc.devRef .tc main_v6) := by after_results_simp <;> rfl
theorem layer1_weights : after layer1 U (Proc.devRef .tc main_v30) = U (Proc.devRef .tc main_v30) := by after_results_simp <;> rfl
theorem layer1_arg4 : after layer1 U (Proc.devRef .tc main_arg4) = U (Proc.devRef .tc main_arg4) := by after_results_simp <;> rfl
theorem layer1_arg5 : after layer1 U (Proc.devRef .tc main_arg5) = U (Proc.devRef .tc main_arg5) := by after_results_simp <;> rfl
end Layer1

/-! ## The second layer -/

section Layer2
variable (U : Valuation τ sig (Elt F))

/-- The second layer's output, from contents holding the hidden activations, the three edge vectors and the last two
    arguments. -/
theorem logits_eq (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S512x16, .f32⟩ : BufTy).Contents (Elt F)) (x3 : (⟨Cert.ReferenceIdeal.S16, .f32⟩ : BufTy).Contents (Elt F))
    (x4 : (⟨Cert.ReferenceIdeal.S16x16, .f32⟩ : BufTy).Contents (Elt F)) (x5 : (⟨Cert.ReferenceIdeal.S16, .f32⟩ : BufTy).Contents (Elt F))
    (hh : U (Proc.devRef .tc main_v48) = ReadP.val_main_v48 (F := F) x0 x1 x2 x3)
    (h4 : U (Proc.devRef .tc main_arg4) = x4) (h5 : U (Proc.devRef .tc main_arg5) = x5)
    (hs : U (Proc.devRef .tc main_v3) = ReadP.val_main_v3 (F := F) x1) (ht : U (Proc.devRef .tc main_v6) = ReadP.val_main_v6 (F := F) x1)
    (hw : U (Proc.devRef .tc main_v30) = ReadP.val_main_v30 (F := F) x1) :
    after layer2 U (Proc.devRef .tc main_v65) = ReadP.val_main_v65 (F := F) x0 x1 x2 x3 x4 x5 := by
  after_results_simp
  rw [hh, h4, h5, hs, ht, hw]
  simp only [ReadP.val_main_v65, ReadP.val_main_v64, ReadP.val_main_v63, ReadP.val_main_v62, ReadP.val_main_v61, ReadP.val_main_v60, ReadP.val_main_cst_12, ReadP.val_main_v59, ReadP.val_main_v58, ReadP.val_main_v57, ReadP.val_main_v56, ReadP.val_main_v55, ReadP.val_main_v54, ReadP.val_main_v53, ReadP.val_main_v52, ReadP.val_main_c_11, ReadP.val_main_v51, ReadP.val_main_v50, ReadP.val_main_c_10, ReadP.val_main_v49]
  try rfl

/-- The log-softmax over the 16 classes, from any contents that hold the second layer's output. -/
theorem softmax_eq (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S512x16, .f32⟩ : BufTy).Contents (Elt F)) (x3 : (⟨Cert.ReferenceIdeal.S16, .f32⟩ : BufTy).Contents (Elt F))
    (x4 : (⟨Cert.ReferenceIdeal.S16x16, .f32⟩ : BufTy).Contents (Elt F)) (x5 : (⟨Cert.ReferenceIdeal.S16, .f32⟩ : BufTy).Contents (Elt F))
    (h : U (Proc.devRef .tc main_v65) = ReadP.val_main_v65 (F := F) x0 x1 x2 x3 x4 x5) :
    after softmax U (Proc.devRef .tc main_v66) = ReadP.val_main_v66 (F := F) x0 x1 x2 x3 x4 x5 := by
  after_results_simp
  simp only [Cert.Lib.ofBuf_toBuf]
  rw [h]
  simp only [ReadP.val_main_v66, ReadP.val_main_call2_v10, ReadP.val_main_call2_v9, ReadP.val_main_call2_v8, ReadP.val_main_call2_v7, ReadP.val_main_call2_cst_1, ReadP.val_main_call2_v6, ReadP.val_main_call2_v5, ReadP.val_main_call2_v4, ReadP.val_main_call2_v3, ReadP.val_main_call2_v2, ReadP.val_main_call2_v1, ReadP.val_main_call2_cst_0, ReadP.val_main_call2_v0, ReadP.val_main_call2_cst]
  try rfl
end Layer2

/-! ## The whole run -/

/-- The result buffer after the whole line, from the launch memory. -/
theorem line_result (m : (ℓ : Loc nD τ sig) → Buf (Elt F) ℓ) (c : Dev nD) :
    after ValueP.ops (launchContents m c) (Proc.devRef .tc main_v66)
      = ReadP.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_cut]
  refine softmax_eq _ _ _ _ _ _ _ ?_
  refine logits_eq _ _ _ _ _ _ _ ?_ ?_ ?_ ?_ ?_ ?_
  · refine hidden_eq _ _ _ _ _ ?_ ?_ ?_ ?_ ?_ ?_
    · exact (prepare_arg0 _).trans rfl
    · exact (prepare_arg2 _).trans rfl
    · exact (prepare_arg3 _).trans rfl
    · exact sources_eq _
    · exact targets_eq _
    · exact weights_eq _
  · exact (layer1_arg4 _).trans ((prepare_arg4 _).trans rfl)
  · exact (layer1_arg5 _).trans ((prepare_arg5 _).trans rfl)
  · exact (layer1_sources _).trans (sources_eq _)
  · exact (layer1_targets _).trans (targets_eq _)
  · exact (layer1_weights _).trans (weights_eq _)

set_option maxHeartbeats 40000000 in
/-- On every device, from any memory with zero counters: every weakly fair execution of the reference's @main terminates
    with the result at the last stage function of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = ReadP.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (line_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq ValueP.scopedRefs_eq ValueP.scopedSems_eq defs main (fun _ => ValueP.ops) ValueP.main_eq (fun _ => ValueP.ops_sub) m ρ)

end Cert.ReferenceIdeal.Stages

end
-- ==== Proof.Stages.lean ====
/-
  The host side of the kernel's program, stretch by stretch.

  Around its two pallas_calls the kernel's program runs the same host operations as the reference: from the edge list it
  builds the source and target node of every edge (self loops appended), the degree of every node and the symmetric
  normalisation of every edge; after the first product it gathers the product's rows along the edges, scales them, adds
  them up at their target nodes, adds the bias and applies relu; after the second product it does the same without the
  relu and ends with a log-softmax over the 16 classes.

  Each stretch is read here as the reference's own stage functions (the functions `val_…` of the argument arrays) of
  what the stretch finds: the three index and weight vectors before the first call; the hidden activations, GIVEN that the
  first call left the first product; the result, GIVEN that the second call left the second product. Nothing here depends
  on the float family.
-/
import proofs.«159775_j15762529976717_1_alg».proof.Proof.Gen.KernelIdeal.Frame
import proofs.«159775_j15762529976717_1_alg».proof.Proof.RefRead
import proofs.«159775_j15762529976717_1_alg».proof.Proof.LibTypedRef
import Idealize.ShloMosaic.Lib.StableHlo.Run

set_option maxRecDepth 65536

noncomputable section

namespace Cert.KernelIdeal.Stages

open Cert.KernelIdeal Cert.KernelIdeal.Gen
open Idealize.ShloMosaic Idealize.ShloMosaic.TcCoe Idealize.SL.Sem Idealize.ShloMosaic.StableHlo

/-- After the one-pass reading of a stretch, the operands of a concatenate are still written as "the contents after the
    earlier operations, at this buffer": read those too, one operation at a time. -/
macro "read_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable {F : FTy → Type} [FloatOps F]
variable (m : (ℓ : Loc nD τ sig) → Buf (Elt F) ℓ) (ρ : Dev nD → PrngReg)

/-! ## Before the first call -/

/-- The source node of every edge, self loops appended. -/
theorem sources_eq (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  read_inside
  try simp only [Cert.Lib.ofBuf_toBuf]
  rfl

/-- The target node of every edge, self loops appended. -/
theorem targets_eq (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp
  read_inside
  try simp only [Cert.Lib.ofBuf_toBuf]
  rfl

/-- The symmetric normalisation of every edge: the product of its two ends' inverse square-root degrees. -/
theorem weights_eq (c : Dev nD) :
    W3 m ρ c (Proc.devRef .tc main_v30) = Cert.ReferenceIdeal.ReadP.val_main_v30 (F := F) (m ((c : Thread nD τ).loc main_arg1)) := by
  show StableHlo.after hostOps0_2 (StableHlo.after hostOps0_1 (StableHlo.after hostOps0 (W0 m ρ c))) (Proc.devRef .tc main_v30) = _
  after_results_simp
  read_inside
  try simp only [Cert.Lib.ofBuf_toBuf]
  rfl

/-- No host operation before the first call writes an argument. -/
theorem entry_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem entry_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem entry_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem entry_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem entry_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Between the calls -/

/-- The first call writes only its result array: the three vectors and the later arguments are as before it. -/
theorem sources_mid (c : Dev nD) : W4 m ρ c (Proc.devRef .tc main_v3) = Cert.ReferenceIdeal.ReadP.val_main_v3 (F := F) (m ((c : Thread nD τ).loc main_arg1)) :=
  (W4_of_ne m ρ c main_v3 (by decide)).trans (sources_eq m ρ c)
theorem targets_mid (c : Dev nD) : W4 m ρ c (Proc.devRef .tc main_v6) = Cert.ReferenceIdeal.ReadP.val_main_v6 (F := F) (m ((c : Thread nD τ).loc main_arg1)) :=
  (W4_of_ne m ρ c main_v6 (by decide)).trans (targets_eq m ρ c)
theorem weights_mid (c : Dev nD) : W4 m ρ c (Proc.devRef .tc main_v30) = Cert.ReferenceIdeal.ReadP.val_main_v30 (F := F) (m ((c : Thread nD τ).loc main_arg1)) :=
  (W4_of_ne m ρ c main_v30 (by decide)).trans (weights_eq m ρ c)
theorem mid_arg3 (c : Dev nD) : W4 m ρ c (Proc.devRef .tc main_arg3) = (m ((c : Thread nD τ).loc main_arg3)) :=
  (W4_of_ne m ρ c main_arg3 (by decide)).trans (entry_arg3 m ρ c)
theorem mid_arg4 (c : Dev nD) : W4 m ρ c (Proc.devRef .tc main_arg4) = (m ((c : Thread nD τ).loc main_arg4)) :=
  (W4_of_ne m ρ c main_arg4 (by decide)).trans (entry_arg4 m ρ c)
theorem mid_arg5 (c : Dev nD) : W4 m ρ c (Proc.devRef .tc main_arg5) = (m ((c : Thread nD τ).loc main_arg5)) :=
  (W4_of_ne m ρ c main_arg5 (by decide)).trans (entry_arg5 m ρ c)

/-- THE HIDDEN ACTIVATIONS: if the first call left the first product in its result array, the stretch after it leaves
    relu (the product's rows gathered along the edges, weighted, summed at their targets, plus the bias). -/
theorem hidden_eq (c : Dev nD)
    (h31 : W4 m ρ c (Proc.devRef .tc main_v31) = Cert.ReferenceIdeal.ReadP.val_main_v31 (F := F) (m ((c : Thread nD τ).loc main_arg0)) (m ((c : Thread nD τ).loc main_arg2))) :
    W6 m ρ c (Proc.devRef .tc main_v48) = Cert.ReferenceIdeal.ReadP.val_main_v48 (F := F) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W4 m ρ c)) (Proc.devRef .tc main_v48) = _
  after_results_simp
  simp only [Cert.Lib.ofBuf_toBuf]
  rw [h31, sources_mid, targets_mid, weights_mid, mid_arg3]
  simp only [Cert.ReferenceIdeal.ReadP.val_main_v48, Cert.ReferenceIdeal.ReadP.val_main_call1_v0, Cert.ReferenceIdeal.ReadP.val_main_call1_cst, Cert.ReferenceIdeal.ReadP.val_main_v47, Cert.ReferenceIdeal.ReadP.val_main_v46, Cert.ReferenceIdeal.ReadP.val_main_v45, Cert.ReferenceIdeal.ReadP.val_main_v44, Cert.ReferenceIdeal.ReadP.val_main_v43, Cert.ReferenceIdeal.ReadP.val_main_v42, Cert.ReferenceIdeal.ReadP.val_main_cst_9, Cert.ReferenceIdeal.ReadP.val_main_v41, Cert.ReferenceIdeal.ReadP.val_main_v40, Cert.ReferenceIdeal.ReadP.val_main_v39, Cert.ReferenceIdeal.ReadP.val_main_v38, Cert.ReferenceIdeal.ReadP.val_main_v37, Cert.ReferenceIdeal.ReadP.val_main_v36, Cert.ReferenceIdeal.ReadP.val_main_v35, Cert.ReferenceIdeal.ReadP.val_main_v34, Cert.ReferenceIdeal.ReadP.val_main_c_8, Cert.ReferenceIdeal.ReadP.val_main_v33, Cert.ReferenceIdeal.ReadP.val_main_v32, Cert.ReferenceIdeal.ReadP.val_main_c_7]
  try rfl

/-- What the second call and the last stretch still read is untouched by the stretch between the calls. -/
theorem sources_late (c : Dev nD) : W6 m ρ c (Proc.devRef .tc main_v3) = Cert.ReferenceIdeal.ReadP.val_main_v3 (F := F) (m ((c : Thread nD τ).loc main_arg1)) := by
  refine Eq.trans ?_ (sources_mid m ρ c)
  show StableHlo.after hostOps1_1 (StableHlo.after hostOps1 (W4 m ρ c)) (Proc.devRef .tc main_v3) = _
  after_results_simp <;> rfl
theorem targets_late (c : Dev nD) : W6 m ρ c (Proc.devRef .tc main_v6) = Cert.ReferenceIdeal.ReadP.val_main_v6 (F := F) (m ((c : Thread nD τ).loc main_arg1)) := by
  refine Eq.trans ?_ (targets_mid m ρ c)
  show StableHlo.after hostOps1_1 (StableHlo.after hostOps1 (W4 m ρ c)) (Proc.devRef .tc main_v6) = _
  after_results_simp <;> rfl
theorem weights_late (c : Dev nD) : W6 m ρ c (Proc.devRef .tc main_v30) = Cert.ReferenceIdeal.ReadP.val_main_v30 (F := F) (m ((c : Thread nD τ).loc main_arg1)) := by
  refine Eq.trans ?_ (weights_mid m ρ c)
  show StableHlo.after hostOps1_1 (StableHlo.after hostOps1 (W4 m ρ c)) (Proc.devRef .tc main_v30) = _
  after_results_simp <;> rfl
theorem late_arg4 (c : Dev nD) : W6 m ρ c (Proc.devRef .tc main_arg4) = (m ((c : Thread nD τ).loc main_arg4)) := by
  refine Eq.trans ?_ (mid_arg4 m ρ c)
  show StableHlo.after hostOps1_1 (StableHlo.after hostOps1 (W4 m ρ c)) (Proc.devRef .tc main_arg4) = _
  after_results_simp <;> rfl
theorem late_arg5 (c : Dev nD) : W6 m ρ c (Proc.devRef .tc main_arg5) = (m ((c : Thread nD τ).loc main_arg5)) := by
  refine Eq.trans ?_ (mid_arg5 m ρ c)
  show StableHlo.after hostOps1_1 (StableHlo.after hostOps1 (W4 m ρ c)) (Proc.devRef .tc main_arg5) = _
  after_results_simp <;> rfl

/-! ## After the second call -/

theorem sources_end (c : Dev nD) : W7 m ρ c (Proc.devRef .tc main_v3) = Cert.ReferenceIdeal.ReadP.val_main_v3 (F := F) (m ((c : Thread nD τ).loc main_arg1)) :=
  (W7_of_ne m ρ c main_v3 (by decide)).trans (sources_late m ρ c)
theorem targets_end (c : Dev nD) : W7 m ρ c (Proc.devRef .tc main_v6) = Cert.ReferenceIdeal.ReadP.val_main_v6 (F := F) (m ((c : Thread nD τ).loc main_arg1)) :=
  (W7_of_ne m ρ c main_v6 (by decide)).trans (targets_late m ρ c)
theorem weights_end (c : Dev nD) : W7 m ρ c (Proc.devRef .tc main_v30) = Cert.ReferenceIdeal.ReadP.val_main_v30 (F := F) (m ((c : Thread nD τ).loc main_arg1)) :=
  (W7_of_ne m ρ c main_v30 (by decide)).trans (weights_late m ρ c)
theorem end_arg5 (c : Dev nD) : W7 m ρ c (Proc.devRef .tc main_arg5) = (m ((c : Thread nD τ).loc main_arg5)) :=
  (W7_of_ne m ρ c main_arg5 (by decide)).trans (late_arg5 m ρ c)

/-- THE SECOND LAYER'S OUTPUT: if the second call left the second product in its result array, the stretch after it leaves
    the product's rows gathered along the edges, weighted, summed at their targets, plus the bias. -/
theorem logits_eq (c : Dev nD)
    (h49 : W7 m ρ c (Proc.devRef .tc main_v49) = Cert.ReferenceIdeal.ReadP.val_main_v49 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v65) = Cert.ReferenceIdeal.ReadP.val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v65) = _
  after_results_simp
  rw [h49, sources_end, targets_end, weights_end, end_arg5]
  simp only [Cert.ReferenceIdeal.ReadP.val_main_v65, Cert.ReferenceIdeal.ReadP.val_main_v64, Cert.ReferenceIdeal.ReadP.val_main_v63, Cert.ReferenceIdeal.ReadP.val_main_v62, Cert.ReferenceIdeal.ReadP.val_main_v61, Cert.ReferenceIdeal.ReadP.val_main_v60, Cert.ReferenceIdeal.ReadP.val_main_cst_12, Cert.ReferenceIdeal.ReadP.val_main_v59, Cert.ReferenceIdeal.ReadP.val_main_v58, Cert.ReferenceIdeal.ReadP.val_main_v57, Cert.ReferenceIdeal.ReadP.val_main_v56, Cert.ReferenceIdeal.ReadP.val_main_v55, Cert.ReferenceIdeal.ReadP.val_main_v54, Cert.ReferenceIdeal.ReadP.val_main_v53, Cert.ReferenceIdeal.ReadP.val_main_v52, Cert.ReferenceIdeal.ReadP.val_main_c_11, Cert.ReferenceIdeal.ReadP.val_main_v51, Cert.ReferenceIdeal.ReadP.val_main_v50, Cert.ReferenceIdeal.ReadP.val_main_c_10]
  try rfl

/-- The log-softmax over the 16 classes, from any contents that hold the second layer's output. -/
theorem softmax_eq (U : Valuation τ sig (Elt F)) (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S512x16, .f32⟩ : BufTy).Contents (Elt F)) (x3 : (⟨Cert.ReferenceIdeal.S16, .f32⟩ : BufTy).Contents (Elt F))
    (x4 : (⟨Cert.ReferenceIdeal.S16x16, .f32⟩ : BufTy).Contents (Elt F)) (x5 : (⟨Cert.ReferenceIdeal.S16, .f32⟩ : BufTy).Contents (Elt F))
    (h : U (Proc.devRef .tc main_v65) = Cert.ReferenceIdeal.ReadP.val_main_v65 (F := F) x0 x1 x2 x3 x4 x5) :
    StableHlo.after hostOps2_1 U (Proc.devRef .tc main_v66) = Cert.ReferenceIdeal.ReadP.val_main_v66 (F := F) x0 x1 x2 x3 x4 x5 := by
  after_results_simp
  simp only [Cert.Lib.ofBuf_toBuf]
  rw [h]
  simp only [Cert.ReferenceIdeal.ReadP.val_main_v66, Cert.ReferenceIdeal.ReadP.val_main_call2_v10, Cert.ReferenceIdeal.ReadP.val_main_call2_v9, Cert.ReferenceIdeal.ReadP.val_main_call2_v8, Cert.ReferenceIdeal.ReadP.val_main_call2_v7, Cert.ReferenceIdeal.ReadP.val_main_call2_cst_1, Cert.ReferenceIdeal.ReadP.val_main_call2_v6, Cert.ReferenceIdeal.ReadP.val_main_call2_v5, Cert.ReferenceIdeal.ReadP.val_main_call2_v4, Cert.ReferenceIdeal.ReadP.val_main_call2_v3, Cert.ReferenceIdeal.ReadP.val_main_call2_v2, Cert.ReferenceIdeal.ReadP.val_main_call2_v1, Cert.ReferenceIdeal.ReadP.val_main_call2_cst_0, Cert.ReferenceIdeal.ReadP.val_main_call2_v0, Cert.ReferenceIdeal.ReadP.val_main_call2_cst]
  try rfl

/-- THE RESULT: if the second call left the second product in its result array, the program ends with the log-softmax of
    the second layer's output. -/
theorem result_eq (c : Dev nD)
    (h49 : W7 m ρ c (Proc.devRef .tc main_v49) = Cert.ReferenceIdeal.ReadP.val_main_v49 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W9 m ρ c (Proc.devRef .tc main_v66) = Cert.ReferenceIdeal.ReadP.val_main_v66 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  softmax_eq (W8 m ρ c) _ _ _ _ _ _ (logits_eq m ρ c h49)

end Cert.KernelIdeal.Stages

end
-- ==== Proof.Linear1.lean ====
/-
  The first linear layer, as the kernel computes it.

  The first pallas_call walks the 100000 rows of its left operand in 20 blocks of 5000 rows; at a block it loads the
  5000 × 512 rows and the whole 512 × 16 right operand, changes both to bf16 and multiplies them on the matrix unit into
  a zero accumulator. Over the extended reals a change of float format is the identity and the matrix unit's product into
  zero is the plain sum over the contracted axis, so entry (r, n) of the block at point t is
      ∑ k, X (5000·t + r, k) · W (k, n),
  which is entry (5000·t + r, n) of the host's dot_general of the whole arrays. The 20 blocks tile the 100000 × 16 result,
  so after the run the result array IS that dot_general — stated here for whatever the two operand arrays hold when the
  region is entered (a parameter `V`), so that nothing of the program before the region is opened.
-/
import proofs.«159775_j15762529976717_1_alg».proof.Proof.Gen.KernelIdeal.Frame
import proofs.«159775_j15762529976717_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen
open Idealize.ShloMosaic Idealize.ShloMosaic.TcCoe Idealize.SL.Sem
open Idealize.ShloMosaic.Pipeline (Dat Cfg Window)

/-! ## One block's product at an entry -/

/-- The two offsets of a whole-block access are zero. -/
theorem offsets_zero : (![0, 0] : Fin 2 → Nat) = fun _ => 0 := funext fun a => by fin_cases a <;> rfl

/-- The left factor's index for entry `i` of a block and contracted position `k`: row of `i`, column `k`. -/
abbrev rowAt (i : S5000x16.Idx) (k : Fin 512) : S5000x512.Idx := fun a => match a with
  | ⟨0, _⟩ => ⟨(i 0).val, (i 0).isLt⟩
  | ⟨1, _⟩ => ⟨k.val, k.isLt⟩
/-- The right factor's index: row `k`, column of `i`. -/
abbrev colAt (i : S5000x16.Idx) (k : Fin 512) : S512x16.Idx := fun a => match a with
  | ⟨0, _⟩ => ⟨k.val, k.isLt⟩
  | ⟨1, _⟩ => ⟨(i 1).val, (i 1).isLt⟩

theorem lhs_axis0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_axis1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhs_axis0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhs_axis1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- What the body stores, at an entry: over the extended reals the bf16 changes of format are the identity and the
    matrix unit's product into a zero accumulator is the sum of the products along the contracted axis. -/
theorem product_apply (x : Vec Ideal S5000x512 .f32) (w : Vec Ideal S512x16 .f32) (i : S5000x16.Idx) :
    k0_pay1 (F := Ideal) x w i = ∑ k : Fin 512, x (rowAt i k) * w (colAt i k) := by
  unfold k0_pay1
  show FloatOps.matmul dot_S5000x512_S512x16_S5000x16_1_0_0_1_n_n none (truncf (F := Ideal) .bf16 (x : FVec Ideal S5000x512 .f32) bitsLt_bf16_f32) (truncf (F := Ideal) .bf16 (w : FVec Ideal S512x16 .f32) bitsLt_bf16_f32) (constant (F := Ideal) S5000x16 .f32 0x00000000#32) i = _
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx i ((ValueIdx.contrEquiv1 dot_S5000x512_S512x16_S5000x16_1_0_0_1_n_n 512 rfl rfl).symm k) = rowAt i k := funext fun a => Fin.ext (by
    match a with
    | ⟨0, _⟩ => exact lhs_axis0 _ _
    | ⟨1, _⟩ => exact (lhs_axis1 _ _).trans hk)
  have er : dot_S5000x512_S512x16_S5000x16_1_0_0_1_n_n.rhsIdx i ((ValueIdx.contrEquiv1 dot_S5000x512_S512x16_S5000x16_1_0_0_1_n_n 512 rfl rfl).symm k) = colAt i k := funext fun a => Fin.ext (by
    match a with
    | ⟨0, _⟩ => exact (rhs_axis0 _ _).trans hk
    | ⟨1, _⟩ => exact rhs_axis1 _ _)
  show x _ * w _ = _
  rw [el, er]

/-! ## The blocks, and the array after the run -/

section Array

variable (V : (c : Dev nD) → (b : Ref sig .tc) → Buf (Elt Ideal) ((c : Thread nD τ).loc b))

/-- The index maps over the 20 points: the left operand's row block and the result's are the same block (at most the
    19th), and every other block index is zero. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Each of the 20 row blocks of the result is some point's. -/
theorem block_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the host's dot_general of the two operand arrays: entry (r, n) of the
    block is the sum over k of X (5000·t + r, k) · W (k, n), the left rows read through the left window's block at `t`,
    the right operand through its one whole block. -/
theorem flushed_eq (c : Dev nD) (t : Fin cfg0.N) :
    (dat0 V c).flushed 2 t
      = ((cfg0.win 2).blk t).view.read (Elt Ideal) (Cert.ReferenceIdeal.ReadP.val_main_v31 (F := Ideal) (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x512) offsets_zero, View.ld_unit_zero (S := S512x16) offsets_zero]
  obtain ⟨e0, e1, e2, e3, e4, e5⟩ := block_indices t
  funext j
  show k0_pay1 (iblk0 V c 0 t) (iblk0 V c 1 t) j
    = Cert.ReferenceIdeal.ReadP.val_main_v31 (F := Ideal) (V c main_arg0) (V c main_arg2) (((cfg0.win 2).blk t).view.emb j)
  rw [product_apply, Cert.ReferenceIdeal.ReadP.val_main_v31_apply]
  refine Finset.sum_congr rfl fun k _ => ?_
  have hx : iblk0 V c 0 t (rowAt j k)
      = V c main_arg0 (Cert.ReferenceIdeal.ReadP.lidx_main_v31 (((cfg0.win 2).blk t).view.emb j) k) := by
    show V c main_arg0 (((cfg0.win 0).blk t).view.emb (rowAt j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hw : iblk0 V c 1 t (colAt j k)
      = V c main_arg2 (Cert.ReferenceIdeal.ReadP.ridx_main_v31 (((cfg0.win 2).blk t).view.emb j) k) := by
    show V c main_arg2 (((cfg0.win 1).blk t).view.emb (colAt j k)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [hx, hw]

/-- An entry of the result is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- The blocks tile the result: entry (r, n) lies in the block of the point whose row block is r / 5000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE RESULT ARRAY AFTER THE REGION is the host's dot_general of the two operand arrays as the region found them. -/
theorem array_eq (c : Dev nD) :
    (dat0 V c).arrAt 2 cfg0.N = Cert.ReferenceIdeal.ReadP.val_main_v31 (F := Ideal) (V c main_arg0) (V c main_arg2) :=
  (dat0 V c).arrAt_eq_of_cover 2 _ (fun t _ => flushed_eq V c t) covered

end Array

end Cert.KernelIdeal.Linear1

end
-- ==== Proof.Linear2.lean ====
/-
  The second linear layer, as the kernel computes it.

  The second pallas_call walks the 100000 rows of the hidden activations in 4 blocks of 25000 rows; at a block it loads
  the 25000 × 16 rows (through a shape cast to the same shape) and the whole 16 × 16 right operand, changes both to bf16
  and multiplies them on the matrix unit into a zero accumulator. Over the extended reals entry (r, n) of the block at
  point t is ∑ k, H (25000·t + r, k) · W (k, n), entry (25000·t + r, n) of the host's dot_general of the whole arrays, and
  the 4 blocks tile the 100000 × 16 result: after the run the result array is that dot_general of whatever the two operand
  arrays hold when the region is entered (a parameter `V`).
-/
import proofs.«159775_j15762529976717_1_alg».proof.Proof.Gen.KernelIdeal.Frame
import proofs.«159775_j15762529976717_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem
open Idealize.ShloMosaic.Pipeline (Dat Cfg Window)

/-! ## The host's product at an entry, for any left operand -/

/-- The host's dot_general of a 100000 × 16 array with a 16 × 16 one (the reference's second product is this function
    of its hidden activations and the second weight matrix). -/
def hostProduct (h : (⟨Cert.ReferenceIdeal.S100000x16, .f32⟩ : BufTy).Contents (Elt Ideal))
    (w : (⟨Cert.ReferenceIdeal.S16x16, .f32⟩ : BufTy).Contents (Elt Ideal)) :
    (⟨Cert.ReferenceIdeal.S100000x16, .f32⟩ : BufTy).Contents (Elt Ideal) :=
  Host.dotGeneral (F := Ideal) (φ₁ := .f32) (φ₂ := .f32) Cert.ReferenceIdeal.dot_S100000x16_S16x16_S100000x16_1_0_0_1_n_n none h w

/-- At an entry it is the sum over the contracted axis. -/
theorem hostProduct_apply (h : (⟨Cert.ReferenceIdeal.S100000x16, .f32⟩ : BufTy).Contents (Elt Ideal))
    (w : (⟨Cert.ReferenceIdeal.S16x16, .f32⟩ : BufTy).Contents (Elt Ideal)) (i : Cert.ReferenceIdeal.S100000x16.Idx) :
    hostProduct h w i = ∑ k : Fin 16, h (Cert.ReferenceIdeal.ReadP.lidx_main_v49 i k) * w (Cert.ReferenceIdeal.ReadP.ridx_main_v49 i k) := by
  unfold hostProduct
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : Cert.ReferenceIdeal.dot_S100000x16_S16x16_S100000x16_1_0_0_1_n_n.lhsIdx i ((ValueIdx.contrEquiv1 Cert.ReferenceIdeal.dot_S100000x16_S16x16_S100000x16_1_0_0_1_n_n 16 rfl rfl).symm k) = Cert.ReferenceIdeal.ReadP.lidx_main_v49 i k := funext fun a => Fin.ext (by
    match a with
    | ⟨0, _⟩ => exact Cert.ReferenceIdeal.ReadP.lhs_main_v49_0 _ _
    | ⟨1, _⟩ => exact (Cert.ReferenceIdeal.ReadP.lhs_main_v49_1 _ _).trans hk)
  have er : Cert.ReferenceIdeal.dot_S100000x16_S16x16_S100000x16_1_0_0_1_n_n.rhsIdx i ((ValueIdx.contrEquiv1 Cert.ReferenceIdeal.dot_S100000x16_S16x16_S100000x16_1_0_0_1_n_n 16 rfl rfl).symm k) = Cert.ReferenceIdeal.ReadP.ridx_main_v49 i k := funext fun a => Fin.ext (by
    match a with
    | ⟨0, _⟩ => exact (Cert.ReferenceIdeal.ReadP.rhs_main_v49_0 _ _).trans hk
    | ⟨1, _⟩ => exact Cert.ReferenceIdeal.ReadP.rhs_main_v49_1 _ _)
  rw [el, er]

/-! ## One block's product at an entry -/

/-- The two offsets of a whole-block access are zero. -/
theorem offsets_zero : (![0, 0] : Fin 2 → Nat) = fun _ => 0 := funext fun a => by fin_cases a <;> rfl

/-- The left factor's index for entry `i` of a block and contracted position `k`: row of `i`, column `k`. -/
abbrev rowAt (i : S25000x16.Idx) (k : Fin 16) : S25000x16.Idx := fun a => match a with
  | ⟨0, _⟩ => ⟨(i 0).val, (i 0).isLt⟩
  | ⟨1, _⟩ => ⟨k.val, k.isLt⟩
/-- The right factor's index: row `k`, column of `i`. -/
abbrev colAt (i : S25000x16.Idx) (k : Fin 16) : S16x16.Idx := fun a => match a with
  | ⟨0, _⟩ => ⟨k.val, k.isLt⟩
  | ⟨1, _⟩ => ⟨(i 1).val, (i 1).isLt⟩

theorem lhs_axis0 (i : S25000x16.Idx) (q : dot_S25000x16_S16x16_S25000x16_1_0_0_1_n_n.contr.Idx) :
    (dot_S25000x16_S16x16_S25000x16_1_0_0_1_n_n.lhsIdx i q 0).val = (i 0).val := by
  unfold DotDims.lhsIdx
  rw [dif_neg (show ¬(0 : Fin S25000x16.rank) ∈ dot_S25000x16_S16x16_S25000x16_1_0_0_1_n_n.lhsBatch by decide), dif_pos (show (0 : Fin S25000x16.rank) ∈ dot_S25000x16_S16x16_S25000x16_1_0_0_1_n_n.lhsNonContracting by decide)]
  rfl
theorem lhs_axis1 (i : S25000x16.Idx) (q : dot_S25000x16_S16x16_S25000x16_1_0_0_1_n_n.contr.Idx) :
    (dot_S25000x16_S16x16_S25000x16_1_0_0_1_n_n.lhsIdx i q 1).val = (q ⟨0, by decide⟩).val :=
  dot_S25000x16_S16x16_S25000x16_1_0_0_1_n_n.lhsIdx_val_of_single rfl i q
theorem rhs_axis0 (i : S25000x16.Idx) (q : dot_S25000x16_S16x16_S25000x16_1_0_0_1_n_n.contr.Idx) :
    (dot_S25000x16_S16x16_S25000x16_1_0_0_1_n_n.rhsIdx i q 0).val = (q ⟨0, by decide⟩).val :=
  dot_S25000x16_S16x16_S25000x16_1_0_0_1_n_n.rhsIdx_val_of_single rfl i q
theorem rhs_axis1 (i : S25000x16.Idx) (q : dot_S25000x16_S16x16_S25000x16_1_0_0_1_n_n.contr.Idx) :
    (dot_S25000x16_S16x16_S25000x16_1_0_0_1_n_n.rhsIdx i q 1).val = (i 1).val := by
  unfold DotDims.rhsIdx
  rw [dif_neg (show ¬(1 : Fin S16x16.rank) ∈ dot_S25000x16_S16x16_S25000x16_1_0_0_1_n_n.rhsBatch by decide), dif_pos (show (1 : Fin S16x16.rank) ∈ dot_S25000x16_S16x16_S25000x16_1_0_0_1_n_n.rhsNonContracting by decide)]
  rfl

/-- What the body stores, at an entry: the shape cast to the same shape and the bf16 changes of format are the identity
    over the extended reals, and the matrix unit's product into a zero accumulator is the sum of the products along the
    contracted axis. -/
theorem product_apply (x : Vec Ideal S25000x16 .f32) (w : Vec Ideal S16x16 .f32) (i : S25000x16.Idx) :
    k1_pay1 (F := Ideal) x w i = ∑ k : Fin 16, x (rowAt i k) * w (colAt i k) := by
  unfold k1_pay1
  show FloatOps.matmul dot_S25000x16_S16x16_S25000x16_1_0_0_1_n_n none (truncf (F := Ideal) .bf16 (shapeCast S25000x16 (x : FVec Ideal S25000x16 .f32) shapeCasts_S25000x16_S25000x16) bitsLt_bf16_f32) (truncf (F := Ideal) .bf16 (w : FVec Ideal S16x16 .f32) bitsLt_bf16_f32) (constant (F := Ideal) S25000x16 .f32 0x00000000#32) i = _
  rw [shapeCast_self, Ideal.matmul_constant_zero_apply, ← Equiv.sum_comp (ValueIdx.contrEquiv1 dot_S25000x16_S16x16_S25000x16_1_0_0_1_n_n 16 rfl rfl).symm]
  refine Finset.sum_congr rfl fun k _ => ?_
  have hk := ValueIdx.contrEquiv1_symm_val dot_S25000x16_S16x16_S25000x16_1_0_0_1_n_n 16 rfl rfl k
  have el : dot_S25000x16_S16x16_S25000x16_1_0_0_1_n_n.lhsIdx i ((ValueIdx.contrEquiv1 dot_S25000x16_S16x16_S25000x16_1_0_0_1_n_n 16 rfl rfl).symm k) = rowAt i k := funext fun a => Fin.ext (by
    match a with
    | ⟨0, _⟩ => exact lhs_axis0 _ _
    | ⟨1, _⟩ => exact (lhs_axis1 _ _).trans hk)
  have er : dot_S25000x16_S16x16_S25000x16_1_0_0_1_n_n.rhsIdx i ((ValueIdx.contrEquiv1 dot_S25000x16_S16x16_S25000x16_1_0_0_1_n_n 16 rfl rfl).symm k) = colAt i k := funext fun a => Fin.ext (by
    match a with
    | ⟨0, _⟩ => exact (rhs_axis0 _ _).trans hk
    | ⟨1, _⟩ => exact rhs_axis1 _ _)
  show x _ * w _ = _
  rw [el, er]

/-! ## The blocks, and the array after the run -/

section Array

variable (V : (c : Dev nD) → (b : Ref sig .tc) → Buf (Elt Ideal) ((c : Thread nD τ).loc b))

/-- The index maps over the 4 points: the left operand's row block and the result's are the same block (at most the
    3rd), and every other block index is zero. -/
theorem block_indices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 3 :=
  (by decide +kernel : ∀ t : Fin grid1.N, _)

/-- Each of the 4 row blocks of the result is some point's. -/
theorem block_onto : ∀ q : Fin 4, ∃ t : Fin cfg1.N, win1_2.index t = ![q.val, 0] :=
  (by decide +kernel : ∀ q : Fin 4, ∃ t : Fin grid1.N, win1_2.index t = ![q.val, 0])

/-- What point `t` writes back is block `t` of the host's dot_general of the two operand arrays: entry (r, n) of the
    block is the sum over k of H (25000·t + r, k) · W (k, n). -/
theorem flushed_eq (c : Dev nD) (t : Fin cfg1.N) :
    (dat1 V c).flushed 2 t
      = ((cfg1.win 2).blk t).view.read (Elt Ideal) (hostProduct (V c main_v48) (V c main_arg4)) := by
  show (cfg1.win 2).cut (grid1.coords t) ((dat1 V c).after 2 t) = _
  rw [after1_2]
  unfold out1_2
  rw [View.canon_unit_zero offsets_zero]
  simp only [View.ld_unit_zero (S := S25000x16) offsets_zero, View.ld_unit_zero (S := S16x16) offsets_zero]
  obtain ⟨e0, e1, e2, e3, e4, e5⟩ := block_indices t
  funext j
  show k1_pay1 (iblk1 V c 0 t) (iblk1 V c 1 t) j
    = hostProduct (V c main_v48) (V c main_arg4) (((cfg1.win 2).blk t).view.emb j)
  rw [product_apply, hostProduct_apply]
  refine Finset.sum_congr rfl fun k _ => ?_
  have hx : iblk1 V c 0 t (rowAt j k)
      = V c main_v48 (Cert.ReferenceIdeal.ReadP.lidx_main_v49 (((cfg1.win 2).blk t).view.emb j) k) := by
    show V c main_v48 (((cfg1.win 0).blk t).view.emb (rowAt j k)) = _
    refine congrArg (V c main_v48) ?_
    funext a; apply Fin.ext
    match a with
    | ⟨0, _⟩ => show win1_0.index t (0 : Fin 2) * 25000 + 1 * (j 0).val = win1_2.index t (0 : Fin 2) * 25000 + 1 * (j 0).val; omega
    | ⟨1, _⟩ => show win1_0.index t (1 : Fin 2) * 16 + 1 * k.val = k.val; omega
  have hw : iblk1 V c 1 t (colAt j k)
      = V c main_arg4 (Cert.ReferenceIdeal.ReadP.ridx_main_v49 (((cfg1.win 2).blk t).view.emb j) k) := by
    show V c main_arg4 (((cfg1.win 1).blk t).view.emb (colAt j k)) = _
    refine congrArg (V c main_arg4) ?_
    funext a; apply Fin.ext
    match a with
    | ⟨0, _⟩ => show win1_1.index t (0 : Fin 2) * 16 + 1 * k.val = k.val; omega
    | ⟨1, _⟩ => show win1_1.index t (1 : Fin 2) * 16 + 1 * (j 1).val = win1_2.index t (1 : Fin 2) * 16 + 1 * (j 1).val; omega
  rw [hx, hw]

/-- An entry of the result is in point `t`'s block iff each coordinate is in the block's range on its axis. -/
theorem mem_block (t : Fin cfg1.N) (i : S100000x16.Idx) :
    i ∈ ((cfg1.win 2).blk t).view.set ↔ ∀ a : Fin 2, win1_2.index t a * S25000x16.size a ≤ (i a).val ∧ (i a).val < win1_2.index t a * S25000x16.size a + S25000x16.size a := by
  show i ∈ ((View.whole main_v49).slice (win1_2.rect t)).set ↔ _
  rw [View.set_slice_whole, Rect.mem_set_unit]
  exact Iff.rfl

/-- The blocks tile the result: entry (r, n) lies in the block of the point whose row block is r / 25000. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := block_onto ⟨(i 0).val / 25000, by omega⟩
  have q0 : win1_2.index t (0 : Fin 2) = (i 0).val / 25000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 25000 ≤ (i 0).val ∧ (i 0).val < win1_2.index t (0 : Fin 2) * 25000 + 25000; omega
  | ⟨1, _⟩ => show win1_2.index t (1 : Fin 2) * 16 ≤ (i 1).val ∧ (i 1).val < win1_2.index t (1 : Fin 2) * 16 + 16; omega

/-- THE RESULT ARRAY AFTER THE REGION is the host's dot_general of the two operand arrays as the region found them. -/
theorem array_eq (c : Dev nD) :
    (dat1 V c).arrAt 2 cfg1.N = hostProduct (V c main_v48) (V c main_arg4) :=
  (dat1 V c).arrAt_eq_of_cover 2 _ (fun t _ => flushed_eq V c t) covered

end Array

end Cert.KernelIdeal.Linear2

end
-- ==== Proof.Bridge.lean ====
/-
  The kernel's result, over the extended reals, as the reference's function of the arguments.

  The first call leaves the host's product of the features with the first weight matrix (the region's value, at what the
  stretch before it leaves: the two arguments themselves); so the stretch between the calls leaves the reference's hidden
  activations; so the second call leaves the host's product of those with the second weight matrix; so the last stretch
  leaves the reference's result. The run of the program (the launch with the result array named) is re-posted with it.
-/
import proofs.«159775_j15762529976717_1_alg».proof.Proof.ResultRun
import proofs.«159775_j15762529976717_1_alg».proof.Proof.Stages
import proofs.«159775_j15762529976717_1_alg».proof.Proof.Linear1
import proofs.«159775_j15762529976717_1_alg».proof.Proof.Linear2

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first call its result array holds the host's product of the features and the first weight matrix. -/
theorem first_product (c : Dev nD) :
    W4 m ρ c (Proc.devRef .tc main_v31) = Cert.ReferenceIdeal.ReadP.val_main_v31 (F := Ideal) (m ((c : Thread nD τ).loc main_arg0)) (m ((c : Thread nD τ).loc main_arg2)) := by
  refine (W4_arr m ρ c 2).trans ((Linear1.array_eq (V3 m ρ) c).trans ?_)
  show Cert.ReferenceIdeal.ReadP.val_main_v31 (F := Ideal) (W3 m ρ c (Proc.devRef .tc main_arg0)) (W3 m ρ c (Proc.devRef .tc main_arg2)) = _
  rw [Stages.entry_arg0, Stages.entry_arg2]

/-- After the second call its result array holds the host's product of the hidden activations and the second weight
    matrix. -/
theorem second_product (c : Dev nD) :
    W7 m ρ c (Proc.devRef .tc main_v49)
      = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Linear2.array_eq (V6 m ρ) c).trans ?_)
  show Linear2.hostProduct (W6 m ρ c (Proc.devRef .tc main_v48)) (W6 m ρ c (Proc.devRef .tc main_arg4)) = _
  rw [Stages.hidden_eq m ρ c (first_product m ρ c), Stages.late_arg4]
  rfl

/-- The result array at the end of the program. -/
theorem result (c : Dev nD) :
    W9 m ρ c (Proc.devRef .tc main_v66)
      = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stages.result_eq m ρ c (second_product m ρ c)

/-- Every weakly fair execution of the idealized kernel's program terminates with the result array at the reference's
    function of the argument arrays, the arguments unchanged. -/
theorem run : θ_run defs (onTc (τ := τ) (main (F := Ideal))) ⟨m, fun _ => 0, ρ⟩ (fun r => ∀ c : Dev nD,
      r.2.mem ((c.tc : Thread nD τ).loc main_v66)
        = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (ResultRun.run_named m ρ)

end Cert.KernelIdeal.Bridge

end
-- ==== Proof.lean ====
/-
  A two-layer graph convolution over 100000 nodes and 3.3 million edges (self loops included), ending in a log-softmax over
  16 classes: the kernel's program against its jnp reference, over the extended reals.

  The two programs are the same host operations, one for one, except for the two linear layers: where the reference has a
  dot_general of the whole arrays, the kernel has a pallas_call that walks the rows of the left operand in blocks (20 blocks
  of 5000 rows, then 4 blocks of 25000), changes both operands to bf16 and multiplies them on the matrix unit into a zero
  accumulator. Over the extended reals a change of float format is the identity and both products are the plain sum
  ∑ k, X (i, k) · W (k, n); the blocks tile the result; so each call leaves exactly the reference's product (Proof/Linear1,
  Proof/Linear2). Every host stretch in between is the reference's own stage functions of what it finds (Proof/Stages), and
  the result is the reference's function of the arguments (Proof/Bridge). No algebraic law beyond that is used, and the
  precondition (finite inputs) is never opened: the two sums have the same terms in the same places.

  The three frames: the kernel's two programs by their generated frame certificates, the reference's by its run (Proof/RefStages: its line of host operations read in
  three stretches) with the result dropped. The ideal pass rewrote nothing, so `preserves` is trivial.
-/
import proofs.«159775_j15762529976717_1_alg».proof.Defs
import proofs.«159775_j15762529976717_1_alg».proof.Proof.Gen.Kernel
import proofs.«159775_j15762529976717_1_alg».proof.Proof.Gen.Kernel.Skeleton
import proofs.«159775_j15762529976717_1_alg».proof.Proof.Gen.Kernel.Launch
import proofs.«159775_j15762529976717_1_alg».proof.Proof.Gen.Kernel.Points
import proofs.«159775_j15762529976717_1_alg».proof.Proof.Gen.Kernel.Frame
import proofs.«159775_j15762529976717_1_alg».proof.Proof.Gen.KernelIdeal
import proofs.«159775_j15762529976717_1_alg».proof.Proof.Gen.KernelIdeal.Skeleton
import proofs.«159775_j15762529976717_1_alg».proof.Proof.Gen.KernelIdeal.Launch
import proofs.«159775_j15762529976717_1_alg».proof.Proof.Gen.KernelIdeal.Points
import proofs.«159775_j15762529976717_1_alg».proof.Proof.Gen.KernelIdeal.Frame
import proofs.«159775_j15762529976717_1_alg».proof.Proof.Gen.ReferenceIdeal
import proofs.«159775_j15762529976717_1_alg».proof.Proof.Gen.Pre_finite_inputs
import proofs.«159775_j15762529976717_1_alg».proof.Proof.RefRun
import proofs.«159775_j15762529976717_1_alg».proof.Proof.RefRead
import proofs.«159775_j15762529976717_1_alg».proof.Proof.RefStages
import proofs.«159775_j15762529976717_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Stages.run (F := Ideal) m ρ)

/-- From memories that agree on the six arguments both programs end with the result array at the same function of
    them: the kernel's by its run read through the two products, the reference's by its own run. -/
theorem algebraic : Cert.algebraic_KernelIdeal_ReferenceIdeal := by
  intro m ρ m' ρ' _ hagree
  refine ⟨fun c => Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Bridge.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
